-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x65536 : Shape := ⟨2, ![2, 65536]⟩
abbrev S65536x4 : Shape := ⟨2, ![65536, 4]⟩
abbrev S1024x256 : Shape := ⟨2, ![1024, 256]⟩
abbrev S256 : Shape := ⟨1, ![256]⟩
abbrev S256x4 : Shape := ⟨2, ![256, 4]⟩
abbrev S4 : Shape := ⟨1, ![4]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S65536x4 : S_.BroadcastsInDim S65536x4 (![] : Fin 0 → Fin S65536x4.rank)
  reducesTo_S65536x4_S_d0_1 : S65536x4.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S2x65536 : S_.BroadcastsInDim S2x65536 (![] : Fin 0 → Fin S2x65536.rank)
  reducesTo_S2x65536_S_d0_1 : S2x65536.ReducesTo [0, 1] S_

variable [Facts]

def fn_part2 {F : FTy → Type} [FloatOps F] (main_v28 : IVec S_ 1) (main_v33 : IVec S2x65536 1) : IVec S_ 1 :=
  let main_c_12 : IVec S_ 1 := constantI S_ 1 1#1
  let main_v34 : IVec S_ 1 := (fun x v => Host.reduce IntOp.andi x v reducesTo_S2x65536_S_d0_1 h_S_) main_v33 main_c_12
  let main_v35 : IVec S_ 1 := andi main_v28 main_v34
  main_v35

def fn_part1 {F : FTy → Type} [FloatOps F] (main_arg1 : IVec S2x65536 32) (main_arg5 : FVec F S256x4 .f32) (main_arg6 : FVec F S4 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x4 .f32 := Host.absf main_arg5
  let main_cst_6 : FVec F S_ .f32 := constant S_ .f32 0x7F800000#32
  let main_v20 : FVec F S256x4 .f32 := broadcastInDim S256x4 ![] bcast_S_S256x4 main_cst_6
  let main_v21 : IVec S256x4 1 := cmpf .olt main_v19 main_v20
  let main_c_7 : IVec S_ 1 := constantI S_ 1 1#1
  let main_v22 : IVec S_ 1 := (fun x v => Host.reduce IntOp.andi x v reducesTo_S256x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_c_10 : IVec S_ 32 := constantI S_ 32 4294917296#32
  let main_v29 : IVec S2x65536 32 := broadcastInDim S2x65536 ![] bcast_S_S2x65536 main_c_10
  let main_v30 : IVec S2x65536 1 := cmpi .sge main_arg1 main_v29
  let main_c_11 : IVec S_ 32 := constantI S_ 32 50000#32
  let main_v31 : IVec S2x65536 32 := broadcastInDim S2x65536 ![] bcast_S_S2x65536 main_c_11
  let main_v32 : IVec S2x65536 1 := cmpi .slt main_arg1 main_v31
  let main_v33 : IVec S2x65536 1 := andi main_v30 main_v32
  fn_part2 (F := F) main_v28 main_v33

def fn {F : FTy → Type} [FloatOps F] (main_arg0 : FVec F S50000x512 .f32) (main_arg1 : IVec S2x65536 32) (main_arg2 : FVec F S65536x4 .f32) (main_arg3 : FVec F S1024x256 .f32) (main_arg4 : FVec F S256 .f32) (main_arg5 : FVec F S256x4 .f32) (main_arg6 : FVec F S4 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S65536x4 .f32 := Host.absf main_arg2
  let main_cst_0 : FVec F S_ .f32 := constant S_ .f32 0x7F800000#32
  let main_v5 : FVec F S65536x4 .f32 := broadcastInDim S65536x4 ![] bcast_S_S65536x4 main_cst_0
  let main_v6 : IVec S65536x4 1 := cmpf .olt main_v4 main_v5
  let main_c_1 : IVec S_ 1 := constantI S_ 1 1#1
  let main_v7 : IVec S_ 1 := (fun x v => Host.reduce IntOp.andi x v reducesTo_S65536x4_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S50000x512 : Shape := ⟨2, ![50000, 512]⟩
abbrev S2x65536 : Shape := ⟨2, ![2, 65536]⟩
abbrev S65536x4 : Shape := ⟨2, ![65536, 4]⟩
abbrev S1024x256 : Shape := ⟨2, ![1024, 256]⟩
abbrev S256 : Shape := ⟨1, ![256]⟩
abbrev S256x4 : Shape := ⟨2, ![256, 4]⟩
abbrev S4 : Shape := ⟨1, ![4]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x512 : Shape := ⟨2, ![65536, 512]⟩
abbrev S65536x1024 : Shape := ⟨2, ![65536, 1024]⟩
abbrev S1x256 : Shape := ⟨2, ![1, 256]⟩
abbrev S1x4 : Shape := ⟨2, ![1, 4]⟩
abbrev S2048x1024 : Shape := ⟨2, ![2048, 1024]⟩
abbrev S2048x4 : Shape := ⟨2, ![2048, 4]⟩
abbrev S2048x256 : Shape := ⟨2, ![2048, 256]⟩

abbrev nBuf : Space → Nat
  | .hbm => 61
  | .vmem => 8
  | .smem => 0
  | _ => 0

abbrev bufTy : (tb : Table) → Fin (tcTables nBuf tb) → BufTy
  | .hbm, ⟨0, _⟩ => ⟨S50000x512, .f32⟩
  | .hbm, ⟨1, _⟩ => ⟨S2x65536, .i32⟩
  | .hbm, ⟨2, _⟩ => ⟨S65536x4, .f32⟩
  | .hbm, ⟨3, _⟩ => ⟨S1024x256, .f32⟩
  | .hbm, ⟨4, _⟩ => ⟨S256, .f32⟩
  | .hbm, ⟨5, _⟩ => ⟨S256x4, .f32⟩
  | .hbm, ⟨6, _⟩ => ⟨S4, .f32⟩
  | .hbm, ⟨7, _⟩ => ⟨S1x65536, .i32⟩
  | .hbm, ⟨8, _⟩ => ⟨S65536, .i32⟩
  | .hbm, ⟨9, _⟩ => ⟨S1x65536, .i32⟩
  | .hbm, ⟨10, _⟩ => ⟨S65536, .i32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S1, .i32⟩
  | .hbm, ⟨20, _⟩ => ⟨S_, .i32⟩
  | .hbm, ⟨21, _⟩ => ⟨S65536x1, .i32⟩
  | .hbm, ⟨22, _⟩ => ⟨S65536x1, .i1⟩
  | .hbm, ⟨23, _⟩ => ⟨S1x1, .i32⟩
  | .hbm, ⟨24, _⟩ => ⟨S65536x1, .i32⟩
  | .hbm, ⟨25, _⟩ => ⟨S65536x1, .i1⟩
  | .hbm, ⟨26, _⟩ => ⟨S65536x1, .i1⟩
  | .hbm, ⟨27, _⟩ => ⟨S_, .i1⟩
  | .hbm, ⟨28, _⟩ => ⟨S65536, .i1⟩
  | .hbm, ⟨29, _⟩ => ⟨S65536x512, .f32⟩
  | .hbm, ⟨30, _⟩ => ⟨S65536x512, .i1⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S_, .i32⟩
  | .hbm, ⟨35, _⟩ => ⟨S65536, .i32⟩
  | .hbm, ⟨36, _⟩ => ⟨S65536, .i1⟩
  | .hbm, ⟨37, _⟩ => ⟨S_, .i32⟩
  | .hbm, ⟨38, _⟩ => ⟨S65536, .i32⟩
  | .hbm, ⟨39, _⟩ => ⟨S65536, .i32⟩
  | .hbm, ⟨40, _⟩ => ⟨S65536, .i32⟩
  | .hbm, ⟨41, _⟩ => ⟨S65536x1, .i32⟩
  | .hbm, ⟨42, _⟩ => ⟨S1, .i32⟩
  | .hbm, ⟨43, _⟩ => ⟨S_, .i32⟩
  | .hbm, ⟨44, _⟩ => ⟨S65536x1, .i32⟩
  | .hbm, ⟨45, _⟩ => ⟨S65536x1, .i1⟩
  | .hbm, ⟨46, _⟩ => ⟨S1x1, .i32⟩
  | .hbm, ⟨47, _⟩ => ⟨S65536x1, .i32⟩
  | .hbm, ⟨48, _⟩ => ⟨S65536x1, .i1⟩
  | .hbm, ⟨49, _⟩ => ⟨S65536x1, .i1⟩
  | .hbm, ⟨50, _⟩ => ⟨S_, .i1⟩
  | .hbm, ⟨51, _⟩ => ⟨S65536, .i1⟩
  | .hbm, ⟨52, _⟩ => ⟨S65536x512, .f32⟩
  | .hbm, ⟨53, _⟩ => ⟨S65536x512, .i1⟩
  | .hbm, ⟨54, _⟩ => ⟨S_, .f32⟩
  | .hbm, ⟨55, _⟩ => ⟨S65536x512, .f32⟩
  | .hbm, ⟨56, _⟩ => ⟨S65536x512, .f32⟩
  | .hbm, ⟨57, _⟩ => ⟨S65536x1024, .f32⟩
  | .hbm, ⟨58, _⟩ => ⟨S1x256, .f32⟩
  | .hbm, ⟨59, _⟩ => ⟨S1x4, .f32⟩
  | .hbm, ⟨60, _⟩ => ⟨S65536x4, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1x256, .f32⟩
  | .local _ .vmem, ⟨4, _⟩ => ⟨S256x4, .f32⟩
  | .local _ .vmem, ⟨5, _⟩ => ⟨S1x4, .f32⟩
  | .local _ .vmem, ⟨6, _⟩ => ⟨S2048x4, .f32⟩
  | .local _ .vmem, ⟨7, _⟩ => ⟨S2048x4, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x512_0 : S65536.BroadcastsInDim S65536x512 (![0] : Fin 1 → Fin S65536x512.rank)
  bcast_S_S65536x512 : S_.BroadcastsInDim S65536x512 (![] : Fin 0 → Fin S65536x512.rank)
  concatenates_S65536x512_S65536x512_S65536x1024_d1 : Shape.Concatenates [S65536x512, S65536x512] S65536x1024 1
  shapeCasts_S256_S1x256 : S256.ShapeCasts S1x256
  shapeCasts_S4_S1x4 : S4.ShapeCasts S1x4
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x4_S256x4_0_0 : ∀ a, (![0, 0] : Fin 2 → Nat) a + S256x4.size a ≤ S256x4.size a
  h_S256x4 : 0 < S256x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  gather_S50000x512_S65536x1_S65536x512_1_0_n_n_0_1_1512_wf : GatherDims.WF S50000x512 S65536x1 S65536x512 [1] [0] [] [0] [] 1 ![1, 512]
  dot_S2048x1024_S1024x256_S2048x256_1_0_0_1_n_n_wf : DotDims.WF S2048x1024 S1024x256 S2048x256 [1] [0] [0] [1] [] []
  dot_S2048x256_S256x4_S2048x4_1_0_0_1_n_n_wf : DotDims.WF S2048x256 S256x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S256x4.size a
  hwx0_3 : ∀ i : grid0.Coords, EltTy.bits .f32 = 32 ∨ (Rect.block (s := S256x4) S256x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x4.size a ≤ S65536x4.size a
  hwx0_5 : ∀ i : grid0.Coords, EltTy.bits .f32 = 32 ∨ (Rect.block (s := S65536x4) S2048x4.size (cc0_transform_5 i) (hinb0_5 i)).WholeWords (EltTy.packing .f32)

variable [Facts₀]

def gather_S50000x512_S65536x1_S65536x512_1_0_n_n_0_1_1512 : GatherDims S50000x512 S65536x1 S65536x512 where
  offsetDims := [1]
  collapsedSliceDims := [0]
  operandBatchingDims := []
  startIndicesBatchingDims := []
  startIndexMap := [0]
  indexVectorDim := 1
  sliceSizes := ![1, 512]
  wf := gather_S50000x512_S65536x1_S65536x512_1_0_n_n_0_1_1512_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf

abbrev win0_0 : Pipeline.Window sig grid0 :=
  Pipeline.Window.ofSpec (Memref.whole main_v6) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2048x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x65536 : Shape := ⟨2, ![2, 65536]⟩
abbrev S65536x4 : Shape := ⟨2, ![65536, 4]⟩
abbrev S1024x256 : Shape := ⟨2, ![1024, 256]⟩
abbrev S256 : Shape := ⟨1, ![256]⟩
abbrev S256x4 : Shape := ⟨2, ![256, 4]⟩
abbrev S4 : Shape := ⟨1, ![4]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x512 : Shape := ⟨2, ![65536, 512]⟩
abbrev S65536x1024 : Shape := ⟨2, ![65536, 1024]⟩
abbrev S65536x256 : Shape := ⟨2, ![65536, 256]⟩
abbrev S1x256 : Shape := ⟨2, ![1, 256]⟩
abbrev S1x4 : Shape := ⟨2, ![1, 4]⟩

abbrev nBuf : Space → Nat
  | .hbm => 46
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x65536, .i32⟩
  | .hbm, ⟨2, _⟩ => ⟨S65536x4, .f32⟩
  | .hbm, ⟨3, _⟩ => ⟨S1024x256, .f32⟩
  | .hbm, ⟨4, _⟩ => ⟨S256, .f32⟩
  | .hbm, ⟨5, _⟩ => ⟨S256x4, .f32⟩
  | .hbm, ⟨6, _⟩ => ⟨S4, .f32⟩
  | .hbm, ⟨7, _⟩ => ⟨S1x65536, .i32⟩
  | .hbm, ⟨8, _⟩ => ⟨S65536, .i32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S65536x512, .f32⟩
  | .hbm, ⟨18, _⟩ => ⟨S1x65536, .i32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x512, .f32⟩
  | .hbm, ⟨29, _⟩ => ⟨S65536x1024, .f32⟩
  | .hbm, ⟨30, _⟩ => ⟨S65536x256, .f32⟩
  | .hbm, ⟨31, _⟩ => ⟨S1x256, .f32⟩
  | .hbm, ⟨32, _⟩ => ⟨S65536x256, .f32⟩
  | .hbm, ⟨33, _⟩ => ⟨S65536x256, .f32⟩
  | .hbm, ⟨34, _⟩ => ⟨S65536x4, .f32⟩
  | .hbm, ⟨35, _⟩ => ⟨S1x4, .f32⟩
  | .hbm, ⟨36, _⟩ => ⟨S65536x4, .f32⟩
  | .hbm, ⟨37, _⟩ => ⟨S65536x4, .f32⟩
  | .hbm, ⟨38, _⟩ => ⟨S65536x4, .f32⟩
  | .hbm, ⟨39, _⟩ => ⟨S65536x4, .f32⟩
  | .hbm, ⟨40, _⟩ => ⟨S_, .f32⟩
  | .hbm, ⟨41, _⟩ => ⟨S65536x4, .f32⟩
  | .hbm, ⟨42, _⟩ => ⟨S65536x4, .f32⟩
  | .hbm, ⟨43, _⟩ => ⟨S_, .f32⟩
  | .hbm, ⟨44, _⟩ => ⟨S65536x4, .f32⟩
  | .hbm, ⟨45, _⟩ => ⟨S65536x4, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  slices_S2x65536_S1x65536_1_0 : S2x65536.Slices ![1, 0] S1x65536
  concatenates_S65536x512_S65536x512_S65536x1024_d1 : Shape.Concatenates [S65536x512, S65536x512] S65536x1024 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  gather_S50000x512_S65536x1_S65536x512_1_0_n_n_0_1_1512_wf : GatherDims.WF S50000x512 S65536x1 S65536x512 [1] [0] [] [0] [] 1 ![1, 512]
  dot_S65536x1024_S1024x256_S65536x256_1_0_0_1_n_n_wf : DotDims.WF S65536x1024 S1024x256 S65536x256 [1] [0] [0] [1] [] []
  dot_S65536x256_S256x4_S65536x4_1_0_0_1_n_n_wf : DotDims.WF S65536x256 S256x4 S65536x4 [1] [0] [0] [1] [] []

variable [Facts₀]

def gather_S50000x512_S65536x1_S65536x512_1_0_n_n_0_1_1512 : GatherDims S50000x512 S65536x1 S65536x512 where
  offsetDims := [1]
  collapsedSliceDims := [0]
  operandBatchingDims := []
  startIndicesBatchingDims := []
  startIndexMap := [0]
  indexVectorDim := 1
  sliceSizes := ![1, 512]
  wf := gather_S50000x512_S65536x1_S65536x512_1_0_n_n_0_1_1512_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.Decode.lean ====
/-
  The decoder as one function. For an edge `e` and a relation `r`,

    out[e, r] = σ( Σ_h ( Σ_k rel[e, k] · W1[k, h] + b1[h] ) · W2[h, r] + b2[r] ),   σ(z) = 1 / (1 + exp(-z)),

  over the extended reals, where `rel[e, ·]` is the concatenation of the two endpoint embeddings of edge `e`.
  Both programs compute this expression with the sums grouped in this way, so no algebraic law is needed to
  join them, only the reading of each program's operations at an index.
-/
import Idealize.ShloMosaic.PureOps.Ideal
import Idealize.ShloMosaic.Lib.ValueIdx

noncomputable section

namespace Cert.EdgeDecoder

open Idealize.ShloMosaic Idealize.ShloMosaic.ValueIdx

/-- The hidden layer's pre-activation for a row `x` of 1024 features, at hidden unit `h`. -/
def hidden (x : Fin 1024 → EReal) (W1 : (⟨2, ![1024, 256]⟩ : Shape).Idx → EReal)
    (b1 : (⟨1, ![256]⟩ : Shape).Idx → EReal) (h : Fin 256) : EReal :=
  (∑ k : Fin 1024, x k * W1 (ix2 k h)) + b1 (ix1 h)

/-- The decoder's output for a row `x` of 1024 features, at relation `r`. -/
def decodeRow (x : Fin 1024 → EReal) (W1 : (⟨2, ![1024, 256]⟩ : Shape).Idx → EReal)
    (b1 : (⟨1, ![256]⟩ : Shape).Idx → EReal) (W2 : (⟨2, ![256, 4]⟩ : Shape).Idx → EReal)
    (b2 : (⟨1, ![4]⟩ : Shape).Idx → EReal) (r : Fin 4) : EReal :=
  Ideal.logistic ((∑ h : Fin 256, hidden x W1 b1 h * W2 (ix2 h r)) + b2 (ix1 r))

/-- The two-layer decoder with a sigmoid, index by index, as a function of the concatenated endpoint
    embeddings `rel` and of the two layers' weights and biases: entry `(e, r)` decodes row `e` of `rel`. -/
def decode (rel : (⟨2, ![65536, 1024]⟩ : Shape).Idx → EReal) (W1 : (⟨2, ![1024, 256]⟩ : Shape).Idx → EReal)
    (b1 : (⟨1, ![256]⟩ : Shape).Idx → EReal) (W2 : (⟨2, ![256, 4]⟩ : Shape).Idx → EReal)
    (b2 : (⟨1, ![4]⟩ : Shape).Idx → EReal) : (⟨2, ![65536, 4]⟩ : Shape).Idx → EReal :=
  fun i => decodeRow (fun k => rel (ix2 (n0 := 65536) (i 0) k)) W1 b1 W2 b2 (i 1)

/-- The word of `1.0` denotes the number 1. -/
theorem ofBits_one : Ideal.ofBits .f32 0x3F800000#32 = 1 := by
  simp [Ideal.ofBits, Ideal.ieee, -EReal.coe_mul]; norm_num

end Cert.EdgeDecoder

end
-- ==== Proof.Payload.lean ====
/-
  The kernel body at an index. One grid step holds a block `x` of 2048 rows of `rel` and the whole parameter
  arrays (the biases as rows `[1, 256]` and `[1, 4]`). Over the extended reals the conversions to the narrower
  float format are the identity and a product accumulated from zero is the plain sum, so entry `(p, q)` of what
  the body stores is the decoder applied to row `p` of the block:
      σ( Σ_h ( Σ_k x[p, k] · W1[k, h] + b1[0, h] ) · W2[h, q] + b2[0, q] ).
-/
import proofs.«416814_j8581344657622_1_alg».proof.Proof.Gen.KernelIdeal.Skeleton
import proofs.«416814_j8581344657622_1_alg».proof.Proof.Decode
import Idealize.ShloMosaic.Lib.Pipeline.Value
import Idealize.ShloMosaic.Lib.ValueIdx
import Idealize.ShloMosaic.PureOps.Ideal.Laws

noncomputable section

namespace Cert.EdgeDecoder.Kernel

open Cert.KernelIdeal Cert.KernelIdeal.Gen Idealize.ShloMosaic Idealize.ShloMosaic.ValueIdx Cert.EdgeDecoder

/-! ## The first product: a block of rows times `W1` -/

theorem lhs_first_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_first_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_first_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_first_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- Entry `(p, h)` of the first product from a zero accumulator is `Σ_k l[p, k] · r[k, h]`. -/
theorem first_product_apply (l : FVec Ideal S2048x1024 .bf16) (r : FVec Ideal S1024x256 .bf16) (p : Fin 2048) (h : Fin 256) :
    matmul dot_S2048x1024_S1024x256_S2048x256_1_0_0_1_n_n none l r (constant (F := Ideal) S2048x256 .f32 0x00000000#32) (ix2 p h)
      = ∑ k : Fin 1024, l (ix2 p k) * r (ix2 k h) := by
  unfold matmul
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p h) ((contrEquiv1 dot_S2048x1024_S1024x256_S2048x256_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S2048x1024_S1024x256_S2048x256_1_0_0_1_n_n.rhsIdx (ix2 p h) ((contrEquiv1 dot_S2048x1024_S1024x256_S2048x256_1_0_0_1_n_n 1024 rfl rfl).symm k) = ix2 k h := funext fun a => Fin.ext (by
    match a with
    | ⟨0, _⟩ => exact (rhs_first_0 _ _).trans hk
    | ⟨1, _⟩ => exact rhs_first_1 _ _)
  rw [el, er]

/-! ## The second product: the hidden rows times `W2` -/

theorem lhs_second_0 (i : S2048x4.Idx) (q : dot_S2048x256_S256x4_S2048x4_1_0_0_1_n_n.contr.Idx) :
    (dot_S2048x256_S256x4_S2048x4_1_0_0_1_n_n.lhsIdx i q 0).val = (i 0).val := by
  unfold DotDims.lhsIdx
  rw [dif_neg (show ¬(0 : Fin S2048x256.rank) ∈ dot_S2048x256_S256x4_S2048x4_1_0_0_1_n_n.lhsBatch by decide), dif_pos (show (0 : Fin S2048x256.rank) ∈ dot_S2048x256_S256x4_S2048x4_1_0_0_1_n_n.lhsNonContracting by decide)]
  rfl
theorem lhs_second_1 (i : S2048x4.Idx) (q : dot_S2048x256_S256x4_S2048x4_1_0_0_1_n_n.contr.Idx) :
    (dot_S2048x256_S256x4_S2048x4_1_0_0_1_n_n.lhsIdx i q 1).val = (q ⟨0, by decide⟩).val :=
  dot_S2048x256_S256x4_S2048x4_1_0_0_1_n_n.lhsIdx_val_of_single rfl i q
theorem rhs_second_0 (i : S2048x4.Idx) (q : dot_S2048x256_S256x4_S2048x4_1_0_0_1_n_n.contr.Idx) :
    (dot_S2048x256_S256x4_S2048x4_1_0_0_1_n_n.rhsIdx i q 0).val = (q ⟨0, by decide⟩).val :=
  dot_S2048x256_S256x4_S2048x4_1_0_0_1_n_n.rhsIdx_val_of_single rfl i q
theorem rhs_second_1 (i : S2048x4.Idx) (q : dot_S2048x256_S256x4_S2048x4_1_0_0_1_n_n.contr.Idx) :
    (dot_S2048x256_S256x4_S2048x4_1_0_0_1_n_n.rhsIdx i q 1).val = (i 1).val := by
  unfold DotDims.rhsIdx
  rw [dif_neg (show ¬(1 : Fin S256x4.rank) ∈ dot_S2048x256_S256x4_S2048x4_1_0_0_1_n_n.rhsBatch by decide), dif_pos (show (1 : Fin S256x4.rank) ∈ dot_S2048x256_S256x4_S2048x4_1_0_0_1_n_n.rhsNonContracting by decide)]
  rfl

/-- Entry `(p, q)` of the second product from a zero accumulator is `Σ_h l[p, h] · r[h, q]`. -/
theorem second_product_apply (l : FVec Ideal S2048x256 .bf16) (r : FVec Ideal S256x4 .bf16) (p : Fin 2048) (q : Fin 4) :
    matmul dot_S2048x256_S256x4_S2048x4_1_0_0_1_n_n none l r (constant (F := Ideal) S2048x4 .f32 0x00000000#32) (ix2 p q)
      = ∑ h : Fin 256, l (ix2 p h) * r (ix2 h q) := by
  unfold matmul
  rw [Ideal.matmul_constant_zero_apply, ← Equiv.sum_comp (contrEquiv1 dot_S2048x256_S256x4_S2048x4_1_0_0_1_n_n 256 rfl rfl).symm]
  refine Finset.sum_congr rfl fun k _ => ?_
  have hk := contrEquiv1_symm_val dot_S2048x256_S256x4_S2048x4_1_0_0_1_n_n 256 rfl rfl k
  have el : dot_S2048x256_S256x4_S2048x4_1_0_0_1_n_n.lhsIdx (ix2 p q) ((contrEquiv1 dot_S2048x256_S256x4_S2048x4_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2048x256_S256x4_S2048x4_1_0_0_1_n_n.rhsIdx (ix2 p q) ((contrEquiv1 dot_S2048x256_S256x4_S2048x4_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The bias rows, broadcast down the block -/

/-- The hidden bias row `[1, 256]` broadcast to `[2048, 256]` reads its entry `(0, h)` in every row. -/
theorem hidden_bias_apply (v : FVec Ideal S1x256 .f32) (p : Fin 2048) (h : Fin 256) :
    broadcastTo S2048x256 v broadcasts_S1x256_S2048x256 (ix2 p h) = v (ix2 0 h) :=
  broadcastTo_apply v broadcasts_S1x256_S2048x256 (ix2 p h) (ix2 0 h) (fun a => by
    match a with
    | ⟨0, _⟩ => rfl
    | ⟨1, _⟩ => rfl)

/-- The output bias row `[1, 4]` broadcast to `[2048, 4]` reads its entry `(0, q)` in every row. -/
theorem output_bias_apply (v : FVec Ideal S1x4 .f32) (p : Fin 2048) (q : Fin 4) :
    broadcastTo S2048x4 v broadcasts_S1x4_S2048x4 (ix2 p q) = v (ix2 0 q) :=
  broadcastTo_apply v broadcasts_S1x4_S2048x4 (ix2 p q) (ix2 0 q) (fun a => by
    match a with
    | ⟨0, _⟩ => rfl
    | ⟨1, _⟩ => rfl)

/-! ## The payload -/

/-- Entry `(p, q)` of what the body stores: the decoder on row `p` of the block of `rel`, with the biases read
    from their one-row arrays. -/
theorem payload_apply (v0 : Vec Ideal S2048x1024 .f32) (v3 : Vec Ideal S1024x256 .f32) (v6 : Vec Ideal S1x256 .f32)
    (v11 : Vec Ideal S256x4 .f32) (v14 : Vec Ideal S1x4 .f32) (p : Fin 2048) (q : Fin 4) :
    k0_pay1 (F := Ideal) v0 v3 v6 v11 v14 (ix2 p q)
      = decodeRow (fun k => v0 (ix2 p k)) v3 (fun j => v6 (ix2 (0 : Fin 1) (j 0))) v11 (fun j => v14 (ix2 (0 : Fin 1) (j 0))) q := by
  unfold k0_pay1 decodeRow
  simp only [shapeCast_self]
  show Ideal.logistic (_ + _) = Ideal.logistic (_ + _)
  rw [second_product_apply, output_bias_apply]
  refine congrArg Ideal.logistic (congrArg (· + v14 (ix2 (0 : Fin 1) q)) (Finset.sum_congr rfl fun h _ => ?_))
  show (_ + _) * v11 (ix2 h q) = hidden _ v3 _ h * v11 (ix2 h q)
  rw [first_product_apply, hidden_bias_apply]
  rfl

end Cert.EdgeDecoder.Kernel

end
-- ==== Proof.Words.lean ====
/-
  Index words. An edge endpoint is a signed 32-bit word `v`. NumPy indexing of a table with 50000 rows reads a
  negative word from the end: the row is `v + 50000` when `v < 0` and `v` otherwise (`wrapRow`). When
  `-50000 ≤ v < 50000` that row lies in `[0, 49999]`, so a test "the wrapped row is inside the table" answers 1.
  Also: an `and`-reduction that starts from 1 and meets only 1s is 1.
-/
import Idealize.ShloMosaic.Lib.Affine
import Idealize.ShloMosaic.Lib.WordArith
import Idealize.ShloMosaic.PureOps.Reduce

namespace Cert.EdgeDecoder.Words

open Idealize.ShloMosaic

/-- The row a signed index word reads in a table of 50000 rows: negative words count from the end. -/
def wrapRow (v : BitVec 32) : BitVec 32 :=
  Scalar.select (IntOp.cmpi .slt v 0#32) (IntOp.addi v 50000#32) v

/-- For `-50000 ≤ v < 50000` the wrapped row satisfies `0 ≤ row ≤ 49999`. Both facts are stated as the one-bit
    words the comparisons produce (the constant `4294917296` is the word of `-50000`). -/
theorem wrapRow_inside (v : BitVec 32)
    (h : IntOp.andi (IntOp.cmpi .sge v 4294917296#32) (IntOp.cmpi .slt v 50000#32) = 1#1) :
    IntOp.andi (IntOp.cmpi .sge (wrapRow v) 0#32) (IntOp.cmpi .sle (wrapRow v) 49999#32) = 1#1 := by
  obtain ⟨h1, h2⟩ := IntOp.andi_eq_one.1 h
  rw [IntOp.cmpi_sge] at h1
  rw [IntOp.cmpi_slt] at h2
  have c1 : (4294917296#32 : BitVec 32).toInt = -50000 := by decide
  have c2 : (50000#32 : BitVec 32).toInt = 50000 := by decide
  have c3 : (0#32 : BitVec 32).toInt = 0 := by decide
  have c4 : (49999#32 : BitVec 32).toInt = 49999 := by decide
  rw [c1] at h1
  rw [c2] at h2
  rw [IntOp.andi_eq_one, IntOp.cmpi_sge, IntOp.cmpi_sle, c3, c4]
  unfold wrapRow Scalar.select
  by_cases hn : IntOp.cmpi .slt v 0#32 = 1
  · rw [if_pos hn]
    have hn' : v.toInt < (0#32 : BitVec 32).toInt := IntOp.cmpi_slt.1 hn
    rw [c3] at hn'
    have hs : (IntOp.addi v 50000#32).toInt = v.toInt + 50000 := by
      unfold IntOp.addi
      rw [WordArith.toInt_add_of_bounds v 50000#32 (by rw [c2]; omega) (by rw [c2]; omega), c2]
    rw [hs]
    omega
  · rw [if_neg hn]
    have hn' : ¬ v.toInt < (0#32 : BitVec 32).toInt := fun hlt => hn (IntOp.cmpi_slt.2 hlt)
    rw [c3] at hn'
    omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- An `and`-reduction whose initial value and operand hold only 1s is 1 at every result index. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

end Cert.EdgeDecoder.Words
-- ==== Proof.Take.lean ====
/-
  The kernel's gather of endpoint embeddings. It wraps each index word as NumPy does (`Words.wrapRow`), gathers
  the rows, and then keeps a gathered row only where the wrapped index lies inside the table, putting a fill
  value elsewhere. When every index word `v` satisfies `-50000 ≤ v < 50000` the test answers 1 everywhere, so the
  result is the plain gather at the wrapped indices.
-/
import proofs.«416814_j8581344657622_1_alg».proof.KernelIdeal
import proofs.«416814_j8581344657622_1_alg».proof.Proof.Words
import Idealize.ShloMosaic.Lib.ValueIdx

noncomputable section

namespace Cert.EdgeDecoder.Take

open Cert.KernelIdeal Cert.KernelIdeal.Facts₀ Idealize.ShloMosaic Cert.EdgeDecoder.Words

variable {F : FTy → Type} [FloatOps F] [Cert.KernelIdeal.Facts]

/-- The wrapped row numbers of 65536 index words, as the gather's column of start indices. -/
def rows (a : IVec S65536 32) : IVec S65536x1 32 :=
  broadcastInDim S65536x1 ![0] bcast_S65536_S65536x1_0
    (select (cmpi .slt a (broadcastInDim S65536 ![] bcast_S_S65536 (constantI S_ 32 0#32)))
      (addi a (broadcastInDim S65536 ![] bcast_S_S65536 (constantI S_ 32 50000#32))) a)

/-- Per index word: is the wrapped row number inside `[0, 49999]`? -/
def inside (a : IVec S65536 32) : IVec S65536 1 :=
  Host.reduce IntOp.andi
    (andi (cmpi .sge (rows a) (broadcastInDim S65536x1 ![] bcast_S_S65536x1 (constantI S_ 32 0#32)))
      (cmpi .sle (rows a) (broadcastInDim S65536x1 ![0, 1] bcast_S1x1_S65536x1_0_1
        (broadcastInDim S1x1 ![1] bcast_S1_S1x1_1 (constantI S1 32 49999#32)))))
    (constantI S_ 1 1#1) reducesTo_S65536x1_S65536_d1 h_S_

/-- The gathered rows, kept where the row number is inside the table and filled elsewhere. -/
def maskedTake (x : FVec F S50000x512 .f32) (a : IVec S65536 32) : FVec F S65536x512 .f32 :=
  select (broadcastInDim S65536x512 ![0] bcast_S65536_S65536x512_0 (inside a))
    (Host.gather gather_S50000x512_S65536x1_S65536x512_1_0_n_n_0_1_1512 x (rows a))
    (broadcastInDim S65536x512 ![] bcast_S_S65536x512 (constant S_ .f32 0x7FC00000#32))

/-- With every index word in `[-50000, 50000)` the test answers 1 at every position. -/
theorem inside_eq_one (a : IVec S65536 32)
    (ha : ∀ j, IntOp.andi (IntOp.cmpi .sge (a j) 4294917296#32) (IntOp.cmpi .slt (a j) 50000#32) = 1#1) (j : S65536.Idx) :
    inside a j = 1#1 := by
  unfold inside
  refine reduce_andi_ones _ _ _ _ j (fun _ => rfl) (fun i => ?_)
  obtain ⟨k, hk⟩ : ∃ k, rows a i = wrapRow (a k) := ⟨_, rfl⟩
  show IntOp.andi (IntOp.cmpi .sge (rows a i) 0#32) (IntOp.cmpi .sle (rows a i) 49999#32) = 1#1
  rw [hk]
  exact wrapRow_inside _ (ha k)

/-- So the masked gather is the plain gather at the wrapped row numbers. -/
theorem maskedTake_eq_gather (x : FVec F S50000x512 .f32) (a : IVec S65536 32)
    (ha : ∀ j, IntOp.andi (IntOp.cmpi .sge (a j) 4294917296#32) (IntOp.cmpi .slt (a j) 50000#32) = 1#1) :
    maskedTake x a = Host.gather gather_S50000x512_S65536x1_S65536x512_1_0_n_n_0_1_1512 x (rows a) := by
  funext i
  unfold maskedTake
  rw [ValueIdx.select_apply]
  show Scalar.select (inside a _) _ _ = _
  rw [inside_eq_one a ha, ValueIdx.select_one]

end Cert.EdgeDecoder.Take

end
-- ==== Proof.Entry.lean ====
/-
  What the kernel's region finds in its arrays. Before the region the program slices the two rows of
  `edge_index`, gathers and masks the endpoint embeddings (Proof/Take.lean), joins them along the feature axis, and
  reshapes the two biases to one-row arrays. Reading those host operations back gives the three arrays below.
-/
import proofs.«416814_j8581344657622_1_alg».proof.Proof.Gen.KernelIdeal.Frame
import proofs.«416814_j8581344657622_1_alg».proof.Proof.Take
import Idealize.ShloMosaic.Lib.StableHlo.Run

noncomputable section

namespace Cert.EdgeDecoder.Kernel

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The index words of the edges' first endpoints: row 0 of `edge_index`. -/
def endpoint0 (c : Dev nD) : IVec S65536 32 :=
  shapeCast S65536 (extractStridedSlice S1x65536 ![0, 0] (m ((c : Thread nD τ).loc main_arg1)) slices_S2x65536_S1x65536_0_0)
    shapeCasts_S1x65536_S65536

/-- The index words of the edges' second endpoints: row 1 of `edge_index`. -/
def endpoint1 (c : Dev nD) : IVec S65536 32 :=
  shapeCast S65536 (extractStridedSlice S1x65536 ![1, 0] (m ((c : Thread nD τ).loc main_arg1)) slices_S2x65536_S1x65536_1_0)
    shapeCasts_S1x65536_S65536

/-- The concatenated endpoint embeddings as the kernel's program builds them: two masked gathers of `x`, joined
    along the feature axis. -/
def rel (c : Dev nD) : FVec F S65536x1024 .f32 :=
  concatenate S65536x1024 1
    [⟨S65536x512, Take.maskedTake (m ((c : Thread nD τ).loc main_arg0)) (endpoint0 m c)⟩,
     ⟨S65536x512, Take.maskedTake (m ((c : Thread nD τ).loc main_arg0)) (endpoint1 m c)⟩]
    concatenates_S65536x512_S65536x512_S65536x1024_d1

/-- Joining equal halves gives equal arrays. -/
theorem join_congr {α : Type} (a a' b b' : S65536x512.Idx → α) (ha : a = a') (hb : b = b') :
    concatenate S65536x1024 1 [⟨S65536x512, a⟩, ⟨S65536x512, b⟩] concatenates_S65536x512_S65536x512_S65536x1024_d1
      = concatenate S65536x1024 1 [⟨S65536x512, a'⟩, ⟨S65536x512, b'⟩] concatenates_S65536x512_S65536x512_S65536x1024_d1 := by
  subst ha hb; rfl

set_option maxHeartbeats 4000000 in
/-- The first window's array at region entry is `rel`. -/
theorem rel_entry (c : Dev nD) : (V m c main_v6 : S65536x1024.Idx → F .f32) = rel m c := by
  dsimp only [Gen.V]
  simp only [Gen.hostOps0, Gen.hostOps0_1, Gen.hostOps0_2, Gen.hostOps0_3, List.flatten_cons, List.flatten_nil,
    List.append_nil, List.cons_append, List.nil_append]
  after_results_simp
  unfold rel
  refine join_congr _ _ _ _ ?_ ?_
  · after_results_simp <;> (try simp only [TRef.ofBuf, TRef.toBuf, cast_eq]) <;> rfl
  · after_results_simp <;> (try simp only [TRef.ofBuf, TRef.toBuf, cast_eq]) <;> rfl

set_option maxHeartbeats 4000000 in
/-- The hidden bias's window array at region entry is `b1` as one row. -/
theorem b1_entry (c : Dev nD) :
    (V m c main_v7 : S1x256.Idx → F .f32) = shapeCast S1x256 (m ((c : Thread nD τ).loc main_arg4)) shapeCasts_S256_S1x256 := by
  dsimp only [Gen.V]
  simp only [Gen.hostOps0, Gen.hostOps0_1, Gen.hostOps0_2, Gen.hostOps0_3, List.flatten_cons, List.flatten_nil,
    List.append_nil, List.cons_append, List.nil_append]
  after_results_simp <;> rfl

set_option maxHeartbeats 4000000 in
/-- The output bias's window array at region entry is `b2` as one row. -/
theorem b2_entry (c : Dev nD) :
    (V m c main_v8 : S1x4.Idx → F .f32) = shapeCast S1x4 (m ((c : Thread nD τ).loc main_arg6)) shapeCasts_S4_S1x4 := by
  dsimp only [Gen.V]
  simp only [Gen.hostOps0, Gen.hostOps0_1, Gen.hostOps0_2, Gen.hostOps0_3, List.flatten_cons, List.flatten_nil,
    List.append_nil, List.cons_append, List.nil_append]
  after_results_simp <;> rfl

end Cert.EdgeDecoder.Kernel

end
-- ==== Proof.KernelValue.lean ====
/-
  The kernel's result array. The region is entered with `rel` (the two masked gathers joined along the feature
  axis) and the two biases reshaped to one-row arrays; the weights are the arguments themselves. At grid point
  `t` the body sees rows `2048·t … 2048·t + 2047` of `rel` and the whole parameter arrays, and writes rows
  `2048·t …` of the result. Each written entry `(e, r)` is the decoder on row `e` of `rel` (the payload read at an
  index), the 32 row blocks tile the 65536 rows, so the result array ends as `decode rel W1 b1 W2 b2`.
-/
import proofs.«416814_j8581344657622_1_alg».proof.Proof.Gen.KernelIdeal.Value
import proofs.«416814_j8581344657622_1_alg».proof.Proof.Payload
import proofs.«416814_j8581344657622_1_alg».proof.Proof.Entry
import Idealize.ShloMosaic.Lib.Pipeline.Value
import Idealize.ShloMosaic.Lib.ValueLayout

set_option maxRecDepth 16384

noncomputable section

namespace Cert.EdgeDecoder.Kernel

open Cert.KernelIdeal Cert.KernelIdeal.Gen Idealize.ShloMosaic Idealize.ShloMosaic.TcCoe Idealize.SL.Sem
open Idealize.ShloMosaic.ValueIdx Cert.EdgeDecoder
open Idealize.ShloMosaic.Pipeline (Dat)

variable (m : (ℓ : Loc nD τ sig) → Buf (Elt Ideal) ℓ) (ρ : Dev nD → PrngReg)

/-! ## The windows' blocks -/

theorem hz : (![0, 0] : Fin 2 → Nat) = fun _ => 0 := funext fun a => by fin_cases a <;> rfl

/-- The printed index maps over the 32 grid points: the `rel` window moves with the output window down the rows;
    every other block index is 0. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 31 :=
  (by decide +kernel : ∀ t : Fin grid0.N, _)

/-- Every one of the 32 row blocks is some point's output block. -/
theorem idx_onto : ∀ q0 : Fin 32, ∃ t : Fin cfg0.N, win0_5.index t = ![q0.val, 0] :=
  (by decide +kernel : ∀ q0 : Fin 32, ∃ t : Fin grid0.N, win0_5.index t = ![q0.val, 0])

/-- Entry `x` of the `rel` block at point `t` is entry `k` of `rel`, `k` being `x` moved down by the output block's
    row offset. -/
theorem block_rel (c : Dev nD) (t : Fin cfg0.N) (x : S2048x1024.Idx) (k : S65536x1024.Idx)
    (hk0 : (k 0).val = win0_5.index t (0 : Fin 2) * 2048 + (x 0).val) (hk1 : (k 1).val = (x 1).val) :
    (iblk m c 0 t : Vec Ideal S2048x1024 .f32) x = rel m c k := by
  obtain ⟨e00, e01, -⟩ := idx_facts t
  unfold iblk
  rw [View.read_apply]
  show V m c main_v6 _ = _
  rw [rel_entry]
  congr 1
  funext a; apply Fin.ext
  match a with
  | ⟨0, _⟩ => show win0_0.index t (0 : Fin 2) * 2048 + 1 * (x 0).val = (k 0).val; omega
  | ⟨1, _⟩ => show win0_0.index t (1 : Fin 2) * 1024 + 1 * (x 1).val = (k 1).val; omega

/-- The `W1` window's block is the whole argument at every point. -/
theorem block_W1 (c : Dev nD) (t : Fin cfg0.N) :
    (iblk m c 1 t : Vec Ideal S1024x256 .f32) = m ((c : Thread nD τ).loc main_arg3) := by
  obtain ⟨-, -, e10, e11, -⟩ := idx_facts t
  funext x
  unfold iblk
  rw [View.read_apply]
  show V m c main_arg3 _ = _
  rw [V_main_arg3]
  congr 1
  funext a; apply Fin.ext
  match a with
  | ⟨0, _⟩ => show win0_1.index t (0 : Fin 2) * 1024 + 1 * (x 0).val = (x 0).val; omega
  | ⟨1, _⟩ => show win0_1.index t (1 : Fin 2) * 256 + 1 * (x 1).val = (x 1).val; omega

/-- The `W2` window's block is the whole argument at every point. -/
theorem block_W2 (c : Dev nD) (t : Fin cfg0.N) :
    (iblk m c 3 t : Vec Ideal S256x4 .f32) = m ((c : Thread nD τ).loc main_arg5) := by
  obtain ⟨-, -, -, -, -, -, e30, e31, -⟩ := idx_facts t
  funext x
  unfold iblk
  rw [View.read_apply]
  show V m c main_arg5 _ = _
  rw [V_main_arg5]
  congr 1
  funext a; apply Fin.ext
  match a with
  | ⟨0, _⟩ => show win0_3.index t (0 : Fin 2) * 256 + 1 * (x 0).val = (x 0).val; omega
  | ⟨1, _⟩ => show win0_3.index t (1 : Fin 2) * 4 + 1 * (x 1).val = (x 1).val; omega

/-- Entry `(0, h)` of the hidden bias's block is `b1[h]`. -/
theorem block_b1 (c : Dev nD) (t : Fin cfg0.N) (h : Fin 256) :
    (iblk m c 2 t : Vec Ideal S1x256 .f32) (ix2 (0 : Fin 1) h) = (m ((c : Thread nD τ).loc main_arg4) : S256.Idx → EReal) (ix1 h) := by
  obtain ⟨-, -, -, -, e20, e21, -⟩ := idx_facts t
  unfold iblk
  rw [View.read_apply]
  show V m c main_v7 _ = _
  rw [b1_entry]
  refine Eq.trans (congrArg _ ?_) (shapeCast_a_1a_apply _ shapeCasts_S256_S1x256 (0 : Fin 1) h)
  funext a; apply Fin.ext
  match a with
  | ⟨0, _⟩ => show win0_2.index t (0 : Fin 2) * 1 + 1 * 0 = 0; omega
  | ⟨1, _⟩ => show win0_2.index t (1 : Fin 2) * 256 + 1 * h.val = h.val; omega

/-- Entry `(0, r)` of the output bias's block is `b2[r]`. -/
theorem block_b2 (c : Dev nD) (t : Fin cfg0.N) (r : Fin 4) :
    (iblk m c 4 t : Vec Ideal S1x4 .f32) (ix2 (0 : Fin 1) r) = (m ((c : Thread nD τ).loc main_arg6) : S4.Idx → EReal) (ix1 r) := by
  obtain ⟨-, -, -, -, -, -, -, -, e40, e41, -⟩ := idx_facts t
  unfold iblk
  rw [View.read_apply]
  show V m c main_v8 _ = _
  rw [b2_entry]
  refine Eq.trans (congrArg _ ?_) (shapeCast_a_1a_apply _ shapeCasts_S4_S1x4 (0 : Fin 1) r)
  funext a; apply Fin.ext
  match a with
  | ⟨0, _⟩ => show win0_4.index t (0 : Fin 2) * 1 + 1 * 0 = 0; omega
  | ⟨1, _⟩ => show win0_4.index t (1 : Fin 2) * 4 + 1 * r.val = r.val; omega

/-! ## One point's payload is a block of the decoder -/

/-- The body's payload at entry `(p, q)` of the block, from blocks that are the corresponding pieces of whole arrays
    (row `p` of the block is row `e` of `R`), is the decoder of the whole arrays at `(e, q)`. -/
theorem decode_block (X0 : Vec Ideal S2048x1024 .f32) (X1 : Vec Ideal S1024x256 .f32) (X2 : Vec Ideal S1x256 .f32)
    (X3 : Vec Ideal S256x4 .f32) (X4 : Vec Ideal S1x4 .f32)
    (R : FVec Ideal S65536x1024 .f32) (W1 : FVec Ideal S1024x256 .f32) (b1 : FVec Ideal S256 .f32)
    (W2 : FVec Ideal S256x4 .f32) (b2 : FVec Ideal S4 .f32) (p : Fin 2048) (q : Fin 4) (e : Fin 65536)
    (h0 : ∀ k : Fin 1024, X0 (ix2 p k) = R (ix2 e k))
    (h1 : X1 = W1) (h2 : ∀ h : Fin 256, X2 (ix2 (0 : Fin 1) h) = b1 (ix1 h)) (h3 : X3 = W2)
    (h4 : ∀ r : Fin 4, X4 (ix2 (0 : Fin 1) r) = b2 (ix1 r)) :
    k0_pay1 (F := Ideal) X0 X1 X2 X3 X4 (ix2 p q) = decode R W1 b1 W2 b2 (ix2 e q) := by
  subst h1 h3
  have e0 : (fun k : Fin 1024 => X0 (ix2 p k)) = fun k => R (ix2 e k) := funext h0
  have e2 : (fun j : (⟨1, ![256]⟩ : Shape).Idx => X2 (ix2 (0 : Fin 1) (j 0))) = b1 :=
    funext fun j => (h2 (j 0)).trans (congrArg b1 (eq_ix1 j).symm)
  have e4 : (fun j : (⟨1, ![4]⟩ : Shape).Idx => X4 (ix2 (0 : Fin 1) (j 0))) = b2 :=
    funext fun j => (h4 (j 0)).trans (congrArg b2 (eq_ix1 j).symm)
  rw [payload_apply, e0, e2, e4]
  rfl

set_option maxRecDepth 65536 in
/-- WHAT POINT `t` WRITES BACK is block `t` of the decoder of the arrays the region finds. -/
theorem flushed_eq (c : Dev nD) (t : Fin cfg0.N) :
    (dats m 0 c).flushed 5 t = ((cfg0.win 5).blk t).view.read (Elt Ideal)
      (decode (rel m c) (m ((c : Thread nD τ).loc main_arg3)) (m ((c : Thread nD τ).loc main_arg4))
        (m ((c : Thread nD τ).loc main_arg5)) (m ((c : Thread nD τ).loc main_arg6))) := by
  rw [Cert.KernelIdeal.Value.flushed5]
  unfold out0_5
  rw [View.canon_unit_zero hz]
  simp only [View.ld_unit_zero (S := S2048x1024) hz, View.ld_unit_zero (S := S1024x256) hz, View.ld_unit_zero (S := S1x256) hz,
    View.ld_unit_zero (S := S256x4) hz, View.ld_unit_zero (S := S1x4) hz]
  obtain ⟨-, -, -, -, -, -, -, -, -, -, e51, e5le⟩ := idx_facts t
  funext j
  have hj0 : (j 0).val < 2048 := (j 0).isLt
  have hj1 : (j 1).val < 4 := (j 1).isLt
  have hrow : win0_5.index t (0 : Fin 2) * 2048 + (j 0).val < 65536 := by omega
  generalize hG : decode (rel m c) (m ((c : Thread nD τ).loc main_arg3)) (m ((c : Thread nD τ).loc main_arg4))
    (m ((c : Thread nD τ).loc main_arg5)) (m ((c : Thread nD τ).loc main_arg6)) = G
  rw [View.read_apply]
  have hx : (win0 5).xinj (grid0.coords t) j = ix2 (n0 := 2048) (n1 := 4) ⟨(j 0).val, hj0⟩ ⟨(j 1).val, hj1⟩ :=
    funext fun a => by
      match a with
      | ⟨0, _⟩ => rfl
      | ⟨1, _⟩ => rfl
  have hemb : ((cfg0.win 5).blk t).view.emb j
      = ix2 (n0 := 65536) (n1 := 4) ⟨win0_5.index t (0 : Fin 2) * 2048 + (j 0).val, hrow⟩ ⟨(j 1).val, hj1⟩ := by
    funext a; apply Fin.ext
    match a with
    | ⟨0, _⟩ => show win0_5.index t (0 : Fin 2) * 2048 + 1 * (j 0).val = win0_5.index t (0 : Fin 2) * 2048 + (j 0).val; omega
    | ⟨1, _⟩ => show win0_5.index t (1 : Fin 2) * 4 + 1 * (j 1).val = (j 1).val; omega
  have key : ∀ i : S65536x4.Idx,
      i = ix2 (n0 := 65536) (n1 := 4) ⟨win0_5.index t (0 : Fin 2) * 2048 + (j 0).val, hrow⟩ ⟨(j 1).val, hj1⟩ →
      k0_pay1 (F := Ideal) (iblk m c 0 t) (iblk m c 1 t) (iblk m c 2 t) (iblk m c 3 t) (iblk m c 4 t)
          (ix2 (n0 := 2048) (n1 := 4) ⟨(j 0).val, hj0⟩ ⟨(j 1).val, hj1⟩)
        = G i := by
    intro i hi
    rw [hi, ← hG]
    exact decode_block (iblk m c 0 t) (iblk m c 1 t) (iblk m c 2 t) (iblk m c 3 t) (iblk m c 4 t) (rel m c) _ _ _ _
      ⟨(j 0).val, hj0⟩ ⟨(j 1).val, hj1⟩ ⟨_, hrow⟩ (fun k => block_rel m c t _ _ rfl rfl) (block_W1 m c t) (block_b1 m c t)
      (block_W2 m c t) (block_b2 m c t)
  have h1 : (win0 5).cut (grid0.coords t)
        (k0_pay1 (F := Ideal) (iblk m c 0 t) (iblk m c 1 t) (iblk m c 2 t) (iblk m c 3 t) (iblk m c 4 t)) j
      = k0_pay1 (F := Ideal) (iblk m c 0 t) (iblk m c 1 t) (iblk m c 2 t) (iblk m c 3 t) (iblk m c 4 t)
          (ix2 (n0 := 2048) (n1 := 4) ⟨(j 0).val, hj0⟩ ⟨(j 1).val, hj1⟩) :=
    congrArg (k0_pay1 (F := Ideal) (iblk m c 0 t) (iblk m c 1 t) (iblk m c 2 t) (iblk m c 3 t) (iblk m c 4 t)) hx
  have h2 := key (((cfg0.win 5).blk t).view.emb j) hemb
  exact h1.trans h2

/-! ## The blocks tile the result -/

/-- An index of the result is in point `t`'s block iff each coordinate is in the block's range on its axis. -/
theorem mem_blk (t : Fin cfg0.N) (i : S65536x4.Idx) :
    i ∈ ((cfg0.win 5).blk t).view.set ↔ ∀ a : Fin 2, win0_5.index t a * S2048x4.size a ≤ (i a).val ∧ (i a).val < win0_5.index t a * S2048x4.size a + S2048x4.size a := by
  show i ∈ ((View.whole main_v9).slice (win0_5.rect t)).set ↔ _
  rw [View.set_slice_whole, Rect.mem_set_unit]
  exact Iff.rfl

/-- THE RESULT ARRAY after the run is the decoder of `rel` and the parameters: row `e` lies in the block of point
    `e / 2048`. -/
theorem final (c : Dev nD) :
    (dats m 0 c).arrAt 5 cfg0.N = decode (rel m c) (m ((c : Thread nD τ).loc main_arg3)) (m ((c : Thread nD τ).loc main_arg4))
        (m ((c : Thread nD τ).loc main_arg5)) (m ((c : Thread nD τ).loc main_arg6)) :=
  (dats m 0 c).arrAt_eq_of_cover 5 _ (fun t _ => flushed_eq m c t) fun i => by
    have hi0 : (i 0).val < 65536 := (i 0).isLt
    have hi1 : (i 1).val < 4 := (i 1).isLt
    obtain ⟨t, ht⟩ := idx_onto ⟨(i 0).val / 2048, by omega⟩
    have q0 : win0_5.index t (0 : Fin 2) = (i 0).val / 2048 := congrFun ht 0
    have q1 : win0_5.index t (1 : Fin 2) = 0 := congrFun ht 1
    refine ⟨t, flush0_5 t, ?_⟩
    rw [mem_blk]
    intro a
    match a with
    | ⟨0, _⟩ => show win0_5.index t (0 : Fin 2) * 2048 ≤ (i 0).val ∧ (i 0).val < win0_5.index t (0 : Fin 2) * 2048 + 2048; omega
    | ⟨1, _⟩ => show win0_5.index t (1 : Fin 2) * 4 ≤ (i 1).val ∧ (i 1).val < win0_5.index t (1 : Fin 2) * 4 + 4; omega

/-! ## The run, read -/

/-- Every weakly fair execution of the idealized kernel program ends with the result array at the decoder of `rel`
    and the parameters, and the arguments unchanged. -/
theorem run : θ_run defs (onTc (τ := τ) (main (F := Ideal))) ⟨m, fun _ => 0, ρ⟩ fun r => ∀ c : Dev nD,
      r.2.mem ((c : Thread nD τ).loc main_v9) = decode (rel m c) (m ((c : Thread nD τ).loc main_arg3))
        (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.EdgeDecoder.Kernel

end
-- ==== Proof.RefDecode.lean ====
/-
  The reference is the decoder. Read one operation at a time, the reference's result at `(e, r)` is
  1 / (1 + exp(-z)) with z = Σ_h ( Σ_k rel[e, k] · W1[k, h] + b1[h] ) · W2[h, r] + b2[r], where `rel` is its
  concatenation of the two gathered endpoint embeddings; `1 / (1 + exp(-z))` is the sigmoid by definition.
-/
import proofs.«416814_j8581344657622_1_alg».proof.Proof.Gen.ReferenceIdeal.Read
import proofs.«416814_j8581344657622_1_alg».proof.Proof.Decode

noncomputable section

namespace Cert.EdgeDecoder.Reference

open Cert.ReferenceIdeal Cert.ReferenceIdeal.Read Idealize.ShloMosaic Idealize.ShloMosaic.ValueIdx Cert.EdgeDecoder

/-- The reference's last stage, as a function of its concatenated embeddings and the decoder's parameters, is
    `decode`. -/
theorem result_eq_decode (x0 : (⟨S50000x512, .f32⟩ : BufTy).Contents (Elt Ideal)) (x1 : (⟨S2x65536, .i32⟩ : BufTy).Contents (Elt Ideal))
    (x3 : (⟨S1024x256, .f32⟩ : BufTy).Contents (Elt Ideal)) (x4 : (⟨S256, .f32⟩ : BufTy).Contents (Elt Ideal))
    (x5 : (⟨S256x4, .f32⟩ : BufTy).Contents (Elt Ideal)) (x6 : (⟨S4, .f32⟩ : BufTy).Contents (Elt Ideal)) :
    val_main_v32 (F := Ideal) x0 x1 x3 x4 x5 x6 = decode (val_main_v18 (F := Ideal) x0 x1) x3 x4 x5 x6 := by
  funext i
  have eL1 : ∀ (h : Fin 256) (k : Fin 1024), lidx_main_v19 (lidx_main_v23 i h) k = ix2 (n0 := 65536) (i 0) k :=
    fun h k => funext fun a => by match a with | ⟨0, _⟩ => rfl | ⟨1, _⟩ => rfl
  have eR1 : ∀ (h : Fin 256) (k : Fin 1024), ridx_main_v19 (lidx_main_v23 i h) k = ix2 k h :=
    fun h k => funext fun a => by match a with | ⟨0, _⟩ => rfl | ⟨1, _⟩ => rfl
  have eB1 : ∀ h : Fin 256, idx_main_v20 (idx_main_v21 (lidx_main_v23 i h)) = ix1 h :=
    fun h => funext fun a => by match a with | ⟨0, _⟩ => rfl
  have eR2 : ∀ h : Fin 256, ridx_main_v23 i h = ix2 (n1 := 4) h (i 1) :=
    fun h => funext fun a => by match a with | ⟨0, _⟩ => rfl | ⟨1, _⟩ => rfl
  have eB2 : idx_main_v24 (idx_main_v25 i) = ix1 (n := 4) (i 1) :=
    funext fun a => by match a with | ⟨0, _⟩ => rfl
  rw [val_main_v32_apply, val_main_v31_apply, val_main_cst_3_apply, val_main_v30_apply, val_main_v29_apply,
    val_main_cst_apply, val_main_v28_apply, val_main_v27_apply, val_main_v26_apply, val_main_v23_apply,
    val_main_v25_apply, val_main_v24_apply]
  simp only [val_main_v22_apply, val_main_v19_apply, val_main_v21_apply, val_main_v20_apply, eL1, eR1, eB1, eR2, eB2,
    Ideal.hostDivf_def, Ideal.addf_def, Ideal.hostUnary_exp_def, Ideal.hostNegf_def, Ideal.negf_def, Ideal.ofBits_def,
    ofBits_one]
  rfl

end Cert.EdgeDecoder.Reference

end
-- ==== Proof.Domain.lean ====
/-
  The index range, read out of the precondition. The precondition is a conjunction of one-bit words that equals 1;
  its last conjunct is "every word of `edge_index` is at least -50000 and below 50000", an `and`-reduction over the
  whole `[2, 65536]` array of the two comparisons. So each index word satisfies both comparisons.
-/
import proofs.«416814_j8581344657622_1_alg».proof.Pre_finite_inputs
import proofs.«416814_j8581344657622_1_alg».proof.Proof.Gen.Pre_finite_inputs
import Idealize.ShloMosaic.Lib.ReduceAll
import Idealize.ShloMosaic.Lib.ValueIdx

noncomputable section

namespace Cert.EdgeDecoder.Domain

open Cert.Pre_finite_inputs Idealize.ShloMosaic

instance : Subsingleton S_.Idx := ⟨fun a b => funext fun d => d.elim0⟩

/-- Under the precondition every word `v` of `edge_index` satisfies `-50000 ≤ v` and `v < 50000` (as the two
    comparisons' one-bit words; `4294917296` is the word of `-50000`). -/
theorem index_range {F : FTy → Type} [FloatOps F] (a0 : FVec F S50000x512 .f32) (a1 : IVec S2x65536 32)
    (a2 : FVec F S65536x4 .f32) (a3 : FVec F S1024x256 .f32) (a4 : FVec F S256 .f32) (a5 : FVec F S256x4 .f32)
    (a6 : FVec F S4 .f32) (h : fn (F := F) a0 a1 a2 a3 a4 a5 a6 = fun _ => 1#1) (i : S2x65536.Idx) :
    IntOp.andi (IntOp.cmpi .sge (a1 i) 4294917296#32) (IntOp.cmpi .slt (a1 i) 50000#32) = 1#1 := by
  have h0 := congrFun h ValueIdx.ix0
  have h1 : IntOp.andi _ (Host.reduce IntOp.andi
      (andi (cmpi .sge a1 (broadcastInDim S2x65536 ![] Facts.bcast_S_S2x65536 (constantI S_ 32 4294917296#32)))
        (cmpi .slt a1 (broadcastInDim S2x65536 ![] Facts.bcast_S_S2x65536 (constantI S_ 32 50000#32))))
      (constantI S_ 1 1#1) Facts.reducesTo_S2x65536_S_d0_1 Facts.h_S_ ValueIdx.ix0) = 1#1 := h0
  obtain ⟨-, h2⟩ := IntOp.andi_eq_one.1 h1
  exact Host.reduce_andi_all _ _ _ _ _ h2 i

end Cert.EdgeDecoder.Domain

end
-- ==== Proof.lean ====
/-
  Edge decoder: gather the two endpoint embeddings of each edge from `x`, join them, and apply a two-layer decoder
  with a sigmoid. The claim: the kernel program and the reference compute the same array over the extended reals.

  Both programs read negative index words from the end of the table, as NumPy does. The kernel's gather then
  replaces a row whose wrapped index falls outside the table by a fill value, while the reference's indexing reads a
  clamped row there, so the two differ when an index word is outside `[-50000, 50000)`. The statement therefore
  carries, beside finiteness of the float inputs, the reference's own domain: every word of `edge_index` is in
  `[-50000, 50000)`, the range NumPy indexing of a 50000-row table admits. On that domain the kernel's test never
  fires (Proof/Take.lean) and both programs gather the same rows.

  From there the two sides are one expression: with `rel` the joined embeddings,
      out[e, r] = σ( Σ_h ( Σ_k rel[e, k] · W1[k, h] + b1[h] ) · W2[h, r] + b2[r] )        (Proof/Decode.lean).
  The reference is this expression operation by operation (Proof/RefDecode.lean). The kernel computes it 2048 rows
  at a time: the body's stored value at an index is the expression on that row (Proof/Payload.lean; over the extended
  reals the format changes are the identity and `tpu.logistic` is 1 / (1 + exp(-z))), and the 32 row blocks tile the
  result (Proof/KernelValue.lean). No algebraic law and no finiteness is used: the sums are grouped alike on both sides.

  The frames of the two kernel programs are the generated ones; the reference's frame is its run with the result
  dropped; the idealization rewrote nothing, so `preserves` is trivial.
-/
import proofs.«416814_j8581344657622_1_alg».proof.Defs
import proofs.«416814_j8581344657622_1_alg».proof.Proof.Gen.Kernel
import proofs.«416814_j8581344657622_1_alg».proof.Proof.Gen.Kernel.Skeleton
import proofs.«416814_j8581344657622_1_alg».proof.Proof.Gen.Kernel.Launch
import proofs.«416814_j8581344657622_1_alg».proof.Proof.Gen.Kernel.Points
import proofs.«416814_j8581344657622_1_alg».proof.Proof.Gen.Kernel.Frame
import proofs.«416814_j8581344657622_1_alg».proof.Proof.Gen.KernelIdeal
import proofs.«416814_j8581344657622_1_alg».proof.Proof.Gen.KernelIdeal.Skeleton
import proofs.«416814_j8581344657622_1_alg».proof.Proof.Gen.KernelIdeal.Launch
import proofs.«416814_j8581344657622_1_alg».proof.Proof.Gen.KernelIdeal.Points
import proofs.«416814_j8581344657622_1_alg».proof.Proof.Gen.KernelIdeal.Frame
import proofs.«416814_j8581344657622_1_alg».proof.Proof.Gen.ReferenceIdeal
import proofs.«416814_j8581344657622_1_alg».proof.Proof.Gen.Pre_finite_inputs
import proofs.«416814_j8581344657622_1_alg».proof.Proof.Gen.KernelIdeal.Value
import proofs.«416814_j8581344657622_1_alg».proof.Proof.Gen.ReferenceIdeal.Run
import proofs.«416814_j8581344657622_1_alg».proof.Proof.Gen.ReferenceIdeal.Read
import proofs.«416814_j8581344657622_1_alg».proof.Proof.KernelValue
import proofs.«416814_j8581344657622_1_alg».proof.Proof.RefDecode
import proofs.«416814_j8581344657622_1_alg».proof.Proof.Domain
import Idealize.ShloMosaic.Adequacy
import Idealize.ShloMosaic.Init

noncomputable section

namespace Cert.Proof

open Idealize.ShloMosaic Idealize.ShloMosaic.TcCoe Idealize.SL.Sem Cert.EdgeDecoder

/-- On the index domain the kernel's joined embeddings are the reference's: each masked gather is the plain gather
    at the wrapped indices, and the two programs wrap, gather and join with the same operations. -/
theorem rel_eq_reference (m : (ℓ : Loc Cert.KernelIdeal.nD Cert.KernelIdeal.τ Cert.KernelIdeal.sig) → Buf (Elt Ideal) ℓ)
    (c : Dev Cert.KernelIdeal.nD)
    (hdom : ∀ i, IntOp.andi (IntOp.cmpi .sge ((m ((c : Thread Cert.KernelIdeal.nD Cert.KernelIdeal.τ).loc Cert.KernelIdeal.main_arg1) : Cert.KernelIdeal.S2x65536.Idx → BitVec 32) i) 4294917296#32)
      (IntOp.cmpi .slt ((m ((c : Thread Cert.KernelIdeal.nD Cert.KernelIdeal.τ).loc Cert.KernelIdeal.main_arg1) : Cert.KernelIdeal.S2x65536.Idx → BitVec 32) i) 50000#32) = 1#1) :
    Kernel.rel m c = Cert.ReferenceIdeal.Read.val_main_v18 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1)) := by
  unfold Kernel.rel
  rw [Take.maskedTake_eq_gather (F := Ideal) (m ((c : Thread Cert.KernelIdeal.nD Cert.KernelIdeal.τ).loc Cert.KernelIdeal.main_arg0))
      (Kernel.endpoint0 m c) (fun j => hdom _),
    Take.maskedTake_eq_gather (F := Ideal) (m ((c : Thread Cert.KernelIdeal.nD Cert.KernelIdeal.τ).loc Cert.KernelIdeal.main_arg0))
      (Kernel.endpoint1 m c) (fun j => hdom _)]
  rfl

/-- The two idealized programs, from memories that agree on the arguments and satisfy the precondition, both run and
    end with the decoder of the same joined embeddings and the same parameters. -/
theorem algebraic : Cert.algebraic_KernelIdeal_ReferenceIdeal := by
  intro m ρ m' ρ' hpre hagree
  refine ⟨fun c => decode (Kernel.rel m c)
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)), Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  rw [Cert.ReferenceIdeal.Read.val_main_v32_eq, Reference.result_eq_decode, g0, g1, g3, g4, g5, g6,
    ← rel_eq_reference m c (fun i => Domain.index_range _ _ _ _ _ _ _ (hpre c) i)]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
